-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S128x128 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S128x128, .i32⟩
  | .hbm, ⟨4, _⟩ => ⟨S128x32x128, .i32⟩
  | .hbm, ⟨5, _⟩ => ⟨S4096x128, .i32⟩
  | .hbm, ⟨6, _⟩ => ⟨S4096x128x32, .i32⟩
  | .hbm, ⟨7, _⟩ => ⟨S4096x4096, .i32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S8192x4096, .bf16⟩
  | .hbm, ⟨12, _⟩ => ⟨S1x4096, .f32⟩
  | .hbm, ⟨13, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v7) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S128x128, .i32⟩
  | .hbm, ⟨4, _⟩ => ⟨S128x32x128, .i32⟩
  | .hbm, ⟨5, _⟩ => ⟨S4096x128, .i32⟩
  | .hbm, ⟨6, _⟩ => ⟨S4096x128x32, .i32⟩
  | .hbm, ⟨7, _⟩ => ⟨S4096x4096, .i32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, as the body's own arithmetic.

  The body keeps a running sum in a scratch block. At the first of the four points of a run it zeroes the scratch and
  adds the point's partial product to that zero; at the two middle points it adds the point's partial product to what the
  point before left; at the last point it does the same and then writes scratch + bias row to the output block. Each
  store covers its whole block, so what a point leaves is just the value of its last store, with every read of the
  scratch after a store in the same point resolved to that store's value.
-/
import proofs.«138080_j83416854822913_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-block access, in either rank-2 block shape. -/
theorem zero_off : (![0, 0] : Fin 2 → Nat) = fun _ => 0 :=
  funext fun a => by match a with | ⟨0, _⟩ => rfl | ⟨1, _⟩ => rfl

/-- First point of a run: the scratch ends at (zero block) + this point's partial product. -/
theorem scratch_first (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) zero_off, View.readCov_unit_zero (S := S2048x1024) _ zero_off]
  simp only [View.readAt_eq_ld, harg3.read_unread, harg4.read_unread, View.ld_unit_zero (S := S2048x1024) zero_off,
    View.ld_unit_zero (S := S1024x1024) zero_off]

/-- A middle point: the scratch ends at (what the point before left) + this point's partial product. -/
theorem scratch_middle (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x1024 .bf16) (x1 : Vec F S1024x1024 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S2048x1024) zero_off]
  simp only [View.readAt_eq_ld, harg3.read_unread, harg4.read_unread, harg7.read_unread, View.ld_unit_zero (S := S2048x1024) zero_off,
    View.ld_unit_zero (S := S1024x1024) zero_off]

/-- The last point of a run leaves the scratch as a middle point does. -/
theorem scratch_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S2048x1024) zero_off]
  simp only [View.readAt_eq_ld, harg3.read_unread, harg4.read_unread, harg7.read_unread, View.ld_unit_zero (S := S2048x1024) zero_off,
    View.ld_unit_zero (S := S1024x1024) zero_off]

/-- … and the output block at (that scratch) + bias row. -/
theorem out_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S2048x1024) zero_off, View.readCov_unit_zero (S := S2048x1024) _ zero_off]
  simp only [View.readAt_eq_ld, harg3.read_unread, harg4.read_unread, harg5.read_unread, harg7.read_unread,
    View.ld_unit_zero (S := S2048x1024) zero_off, View.ld_unit_zero (S := S1024x1024) zero_off, View.ld_unit_zero (S := S1x1024) zero_off]

end Cert.KernelIdeal.Pieces

end
-- ==== Proof.Payload.lean ====
/-
  The body's arithmetic at one entry of a block, over the extended reals.

  The matrix unit contracts the second axis of the x block [2048, 1024] with the second axis of the weight block
  [1024, 1024]: at (p, q) its left operand is read at (p, k) and its right operand at (q, k), k running over the 1024
  contracted positions. Into a zero accumulator it is therefore  Σ_k xb(p, k) · wb(q, k).  A change of float format is
  the identity on extended reals, and a shape cast to the same shape reads in place. So
    zero block            at (p, q)  is  0,
    accumulate step       at (p, q)  is  acc(p, q) + Σ_k xb(p, k) · wb(q, k),
    bias epilogue         at (p, q)  is  acc(p, q) + bias(0, q).
-/
import proofs.«138080_j83416854822913_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The left operand's row is the output's row. -/
theorem lhs_row (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- Its column is the contracted position. -/
theorem lhs_col (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
/-- The right operand's row is the output's column. -/
theorem rhs_row (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- Its column is the contracted position too. -/
theorem rhs_col (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The block product into zero, at (p, q): the sum over the contracted positions of xb(p, k) · wb(q, k). -/
theorem matmul_zero_apply (xb : FVec Ideal S2048x1024 .bf16) (wb : FVec Ideal S1024x1024 .bf16) (p : Fin 2048) (q : Fin 1024) :
    matmul (F := Ideal) dot_S2048x1024_S1024x1024_S2048x1024_1_1_0_0_n_n none xb wb (constant S2048x1024 .f32 0x00000000#32) (ix2 p q)
      = ∑ k : Fin 1024, (xb (ix2 p k) : EReal) * (wb (ix2 q k) : EReal) := by
  refine (Ideal.matmul_constant_zero_apply dot_S2048x1024_S1024x1024_S2048x1024_1_1_0_0_n_n none xb wb (ix2 p q)).trans ?_
  rw [← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k := funext fun a => Fin.ext (by
    match a with
    | ⟨0, _⟩ => exact lhs_row _ _
    | ⟨1, _⟩ => exact (lhs_col _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k := funext fun a => Fin.ext (by
    match a with
    | ⟨0, _⟩ => exact rhs_row _ _
    | ⟨1, _⟩ => exact (rhs_col _ _).trans hk)
  rw [el, er]

/-- The zero block. -/
theorem zero_apply (j : S2048x1024.Idx) : k0_pay1 (F := Ideal) j = (0 : EReal) := by
  unfold k0_pay1
  simp only [shapeCast_self]
  show Ideal.ofBits .f32 0x00000000#32 = 0
  exact Ideal.ofBits_zero_f32

/-- One accumulate step at (p, q). -/
theorem step_apply (acc : Vec Ideal S2048x1024 .f32) (xb : Vec Ideal S2048x1024 .bf16) (wb : Vec Ideal S1024x1024 .bf16)
    (p : Fin 2048) (q : Fin 1024) :
    k0_pay2 (F := Ideal) acc xb wb (ix2 p q)
      = (acc (ix2 p q) : EReal) + ∑ k : Fin 1024, (xb (ix2 p k) : EReal) * (wb (ix2 q k) : EReal) := by
  unfold k0_pay2
  simp only [shapeCast_self]
  exact congrArg ((acc (ix2 p q) : EReal) + ·) (matmul_zero_apply xb wb p q)

/-- The epilogue at (p, q): the accumulated entry plus the bias row's entry at column q. -/
theorem bias_apply (acc : Vec Ideal S2048x1024 .f32) (bb : Vec Ideal S1x1024 .f32) (p : Fin 2048) (q : Fin 1024) :
    k0_pay3 (F := Ideal) acc bb (ix2 p q) = (acc (ix2 p q) : EReal) + (bb (ix2 (0 : Fin 1) q) : EReal) := by
  unfold k0_pay3
  simp only [shapeCast_self]
  refine congrArg ((acc (ix2 p q) : EReal) + ·) ?_
  exact broadcastTo_apply bb broadcasts_S1x1024_S2048x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

end Cert.KernelIdeal.Payload

end
-- ==== Proof.BlockedSum.lean ====
/-
  The dense layer both programs compute, and the one law that joins their two arrangements of it.

  With x : [8192, 4096], a weight W : [4096, 4096] laid out (output feature, input feature) and a bias b : [4096],
      y[n, o] = Σ_{i < 4096} x[n, i] · W[o, i] + b[o].
  One side contracts the 4096 input features in one sum; the other cuts them into four consecutive runs of 1024,
  starts from zero and adds one run's partial sum after the other. Addition of extended reals is commutative and
  associative with unit zero, so a sum over 4096 = 4 · 1024 indices is the left-nested sum of its four runs; no
  finiteness is needed.
-/
import Idealize.ShloMosaic.PureOps.Ideal.Laws
import Idealize.ShloMosaic.Lib.ValueIdx
import Mathlib.Algebra.BigOperators.Fin

noncomputable section

namespace Cert.BlockedSum

open Idealize.ShloMosaic Idealize.ShloMosaic.ValueIdx

/-- The dense layer at an output index (n, o): the contraction of row n of `x` with row o of `W`, plus `b` at o. -/
def linear (x : FVec Ideal ⟨2, ![8192, 4096]⟩ .f32) (W : FVec Ideal ⟨2, ![4096, 4096]⟩ .f32) (b : FVec Ideal ⟨1, ![4096]⟩ .f32) :
    FVec Ideal ⟨2, ![8192, 4096]⟩ .f32 :=
  fun o => (∑ k : Fin 4096, (x (ix2 (o 0) k) : EReal) * (W (ix2 (o 1) k) : EReal)) + (b (ix1 (o 1)) : EReal)

/-- Input feature `kk` of the `s`-th run of 1024. -/
abbrev runIdx (s : Nat) (hs : s < 4) (kk : Fin 1024) : Fin 4096 := ⟨1024 * s + kk.val, by have := kk.isLt; omega⟩

/-- The input features are the four runs side by side. -/
def runEquiv : Fin 4 × Fin 1024 ≃ Fin 4096 where
  toFun p := runIdx p.1.val p.1.isLt p.2
  invFun k := (⟨k.val / 1024, by have := k.isLt; omega⟩, ⟨k.val % 1024, Nat.mod_lt _ (by decide)⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv k := by
    refine Fin.ext ?_
    show 1024 * (k.val / 1024) + k.val % 1024 = k.val
    omega

/-- A sum over the 4096 input features is zero plus the first run's sum, plus the second's, the third's and the fourth's,
    in that order: the order in which an accumulator that starts at zero receives them. -/
theorem sum_eq_runs {β : Type} [AddCommMonoid β] (f : Fin 4096 → β) :
    ∑ k : Fin 4096, f k
      = (((0 + ∑ kk : Fin 1024, f (runIdx 0 (by decide) kk)) + ∑ kk : Fin 1024, f (runIdx 1 (by decide) kk))
          + ∑ kk : Fin 1024, f (runIdx 2 (by decide) kk)) + ∑ kk : Fin 1024, f (runIdx 3 (by decide) kk) := by
  rw [← Equiv.sum_comp runEquiv f, Fintype.sum_prod_type, Fin.sum_univ_four, zero_add]
  rfl

/-- The contraction of row `n` of `x` with row `o` of `W` over the `s`-th run of 1024 input features. -/
def runSum (x : FVec Ideal ⟨2, ![8192, 4096]⟩ .f32) (W : FVec Ideal ⟨2, ![4096, 4096]⟩ .f32) (n : Fin 8192) (o : Fin 4096)
    (s : Nat) (hs : s < 4) : EReal :=
  ∑ kk : Fin 1024, (x (ix2 n (runIdx s hs kk)) : EReal) * (W (ix2 o (runIdx s hs kk)) : EReal)

/-- The dense layer at (n, o) is what an accumulator holds that starts at zero, receives the four runs' sums in order,
    and then has the bias added. -/
theorem linear_eq_runs (x : FVec Ideal ⟨2, ![8192, 4096]⟩ .f32) (W : FVec Ideal ⟨2, ![4096, 4096]⟩ .f32) (b : FVec Ideal ⟨1, ![4096]⟩ .f32)
    (n : Fin 8192) (o : Fin 4096) :
    linear x W b (ix2 n o)
      = ((((0 + runSum x W n o 0 (by decide)) + runSum x W n o 1 (by decide)) + runSum x W n o 2 (by decide))
          + runSum x W n o 3 (by decide)) + (b (ix1 o) : EReal) := by
  unfold linear runSum
  rw [sum_eq_runs]

end Cert.BlockedSum

end
-- ==== Proof.Blocks.lean ====
/-
  Which entries of the arguments a grid point's blocks hold.

  The grid is 4 × 4 × 4: point number 16·i + 4·j + s is (row block i, column block j, run s of the contraction).
  There the x window holds rows 2048·i … of x and input features 1024·s …; the weight window holds output features
  1024·j … and input features 1024·s … of the masked weight; the bias window holds bias entries 1024·j …; and the output
  window is rows 2048·i …, columns 1024·j … of the result. The arrays the region finds are the host operations' results:
  x and the masked weight narrowed to bf16, which over the extended reals changes nothing, and the bias viewed as one row.
-/
import proofs.«138080_j83416854822913_1_alg».proof.Proof.Gen.KernelIdeal.Frame
import proofs.«138080_j83416854822913_1_alg».proof.Proof.BlockedSum
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.BlockedSum
open Idealize.ShloMosaic Idealize.ShloMosaic.TcCoe Idealize.ShloMosaic.ValueIdx Idealize.SL.Sem Idealize.ShloMosaic.StableHlo

/-- Row `p` of row block `i` of the 8192 rows. -/
abbrev rowIdx (i : Nat) (hi : i < 4) (p : Fin 2048) : Fin 8192 := ⟨2048 * i + p.val, by have := p.isLt; omega⟩

/-- The block index of every window at every grid point, decided once over the 64 points. -/
theorem block_index : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

section AnyInstance
variable {F : FTy → Type} [FloatOps F]
variable (m : (ℓ : Loc nD τ sig) → Buf (Elt F) ℓ)

/-- The masked weight: the weight times the 0/1 block mask, each mask entry repeated over its 32 × 32 block. -/
abbrev maskedWeight (c : Dev nD) : FVec F S4096x4096 .f32 :=
  mulf (m ((c : Thread nD τ).loc main_arg1)) (sitofp .f32 (shapeCast S4096x4096 (broadcastInDim S4096x128x32 ![0, 1] bcast_S4096x128_S4096x128x32_0_1 (shapeCast S4096x128 (broadcastInDim S128x32x128 ![0, 2] bcast_S128x128_S128x32x128_0_2 (m ((c : Thread nD τ).loc main_arg3))) shapeCasts_S128x32x128_S4096x128)) shapeCasts_S4096x128x32_S4096x4096))

/-- The region finds x narrowed to bf16, -/
theorem entry_x (c : Dev nD) : (V m c main_v7 : FVec F S8192x4096 .bf16) = truncf .bf16 (m ((c : Thread nD τ).loc main_arg0)) bitsLt_bf16_f32 := by
  dsimp only [Gen.V, Gen.hostOps0]; after_results <;> rfl

/-- the masked weight narrowed to bf16, -/
theorem entry_w (c : Dev nD) : (V m c main_v6 : FVec F S4096x4096 .bf16) = truncf .bf16 (maskedWeight m c) bitsLt_bf16_f32 := by
  dsimp only [Gen.V, Gen.hostOps0]; after_results <;> rfl

/-- and the bias as a one-row matrix. -/
theorem entry_b (c : Dev nD) : (V m c main_v8 : FVec F S1x4096 .f32) = shapeCast S1x4096 (m ((c : Thread nD τ).loc main_arg2)) shapeCasts_S4096_S1x4096 := by
  dsimp only [Gen.V, Gen.hostOps0]; after_results <;> rfl

/-- The three input blocks of a point, at their literal shapes. -/
abbrev xblk (c : Dev nD) (t : Fin cfg0.N) : Vec F S2048x1024 .bf16 := iblk m c 0 t
abbrev wblk (c : Dev nD) (t : Fin cfg0.N) : Vec F S1024x1024 .bf16 := iblk m c 1 t
abbrev bblk (c : Dev nD) (t : Fin cfg0.N) : Vec F S1x1024 .f32 := iblk m c 2 t

end AnyInstance

variable (m : (ℓ : Loc nD τ sig) → Buf (Elt Ideal) ℓ)

/-- The x block of point 16·i + 4·j + s at (p, k) is x at (row p of row block i, feature k of run s). -/
theorem xblk_apply (c : Dev nD) (t : Fin cfg0.N) (i j s : Nat) (hi : i < 4) (hj : j < 4) (hs : s < 4) (ht : t.val = 16 * i + 4 * j + s)
    (p : Fin 2048) (k : Fin 1024) :
    (xblk m c t (ix2 p k) : EReal) = m ((c : Thread nD τ).loc main_arg0) (ix2 (rowIdx i hi p) (runIdx s hs k)) := by
  unfold xblk iblk
  rw [View.read_apply]
  show V m c main_v7 (((cfg0.win 0).blk t).view.emb (ix2 p k)) = _
  rw [entry_x]
  show m ((c : Thread nD τ).loc main_arg0) (((cfg0.win 0).blk t).view.emb (ix2 p k)) = _
  refine congrArg (m ((c : Thread nD τ).loc main_arg0)) (funext fun a => Fin.ext ?_)
  have hb := block_index t
  match a with
  | ⟨0, _⟩ => show win0_0.index t 0 * 2048 + 1 * p.val = 2048 * i + p.val; rw [hb.1]; omega
  | ⟨1, _⟩ => show win0_0.index t 1 * 1024 + 1 * k.val = 1024 * s + k.val; rw [hb.2.1]; omega

/-- The weight block at (q, k) is the masked weight at (output feature q of column block j, feature k of run s). -/
theorem wblk_apply (c : Dev nD) (t : Fin cfg0.N) (i j s : Nat) (hi : i < 4) (hj : j < 4) (hs : s < 4) (ht : t.val = 16 * i + 4 * j + s)
    (q : Fin 1024) (k : Fin 1024) :
    (wblk m c t (ix2 q k) : EReal) = maskedWeight m c (ix2 (runIdx j hj q) (runIdx s hs k)) := by
  unfold wblk iblk
  rw [View.read_apply]
  show V m c main_v6 (((cfg0.win 1).blk t).view.emb (ix2 q k)) = _
  rw [entry_w]
  show maskedWeight m c (((cfg0.win 1).blk t).view.emb (ix2 q k)) = _
  refine congrArg (maskedWeight m c) (funext fun a => Fin.ext ?_)
  have hb := block_index t
  match a with
  | ⟨0, _⟩ => show win0_1.index t 0 * 1024 + 1 * q.val = 1024 * j + q.val; rw [hb.2.2.1]; omega
  | ⟨1, _⟩ => show win0_1.index t 1 * 1024 + 1 * k.val = 1024 * s + k.val; rw [hb.2.2.2.1]; omega

/-- The bias block at (0, q) is the bias at output feature q of column block j. -/
theorem bblk_apply (c : Dev nD) (t : Fin cfg0.N) (i j s : Nat) (hi : i < 4) (hj : j < 4) (hs : s < 4) (ht : t.val = 16 * i + 4 * j + s)
    (q : Fin 1024) :
    (bblk m c t (ix2 (0 : Fin 1) q) : EReal) = m ((c : Thread nD τ).loc main_arg2) (ix1 (runIdx j hj q)) := by
  unfold bblk iblk
  rw [View.read_apply]
  show V m c main_v8 (((cfg0.win 2).blk t).view.emb (ix2 (0 : Fin 1) q)) = _
  rw [entry_b]
  have hb := block_index t
  refine shapeCast_apply (s := S4096) (t := S1x4096) (m ((c : Thread nD τ).loc main_arg2)) shapeCasts_S4096_S1x4096 _ (ix1 (runIdx j hj q)) ?_
  show (S4096.rowMajor (ix1 (runIdx j hj q))).val = (S1x4096.rowMajor (((cfg0.win 2).blk t).view.emb (ix2 (0 : Fin 1) q))).val
  rw [Shape.rowMajor_val_one, Shape.rowMajor_val_two]
  show 1024 * j + q.val = (win0_2.index t 0 * 1 + 1 * 0) * 4096 + (win0_2.index t 1 * 1024 + 1 * q.val)
  rw [hb.2.2.2.2.1, hb.2.2.2.2.2.1]
  omega

end Cert.KernelIdeal.Blocks

end
-- ==== Proof.Accumulate.lean ====
/-
  The running sum along one run of four grid points, and the block the run's last point writes back.

  Points 16·i + 4·j + s, s = 0, 1, 2, 3, share the output block (i, j). The scratch after s = 0 is 0 + P₀, after each
  later point what the point before left plus that point's Pₛ, where Pₛ at (p, q) is the contraction of x's row
  2048·i + p with the masked weight's row 1024·j + q over the s-th run of 1024 input features. The last point writes
  scratch + bias row. So entry (p, q) of the flushed block is
      ((((0 + P₀) + P₁) + P₂) + P₃) + bias(1024·j + q),
  which is the dense layer at (2048·i + p, 1024·j + q): a sum over all 4096 features is the left-nested sum of its runs.
-/
import proofs.«138080_j83416854822913_1_alg».proof.Proof.Pieces
import proofs.«138080_j83416854822913_1_alg».proof.Proof.Payload
import proofs.«138080_j83416854822913_1_alg».proof.Proof.Blocks

set_option maxRecDepth 16384

noncomputable section

namespace Cert.KernelIdeal.Accumulate

open Cert.KernelIdeal Cert.KernelIdeal.Gen Cert.KernelIdeal.Blocks Cert.BlockedSum
open Idealize.ShloMosaic Idealize.ShloMosaic.TcCoe Idealize.ShloMosaic.ValueIdx Idealize.SL.Sem

/-- The grid point before `t`. -/
abbrev before (t : Fin cfg0.N) : Fin cfg0.N := ⟨t.val - 1, Nat.lt_of_le_of_lt (Nat.sub_le _ _) t.isLt⟩

section AnyInstance
variable {F : FTy → Type} [FloatOps F]
variable (m : (ℓ : Loc nD τ sig) → Buf (Elt F) ℓ)

/-- What the scratch holds after point `t`. -/
abbrev scratchAfter (c : Dev nD) (t : Fin cfg0.N) : Vec F S2048x1024 .f32 := (outsAt0 m c t.val t.isLt).2

/-- At the first point of a run the scratch restarts: zero block plus the point's partial product. -/
theorem scratch_reset (c : Dev nD) (t : Fin cfg0.N) (h0 : t.val % 4 = 0) :
    scratchAfter m c t = k0_pay2 (k0_pay1 (F := F)) (xblk m c t) (wblk m c t) := by
  have h1 : ¬t.val % 4 = 3 := by omega
  show (outsAt0 m c t.val t.isLt).2 = _
  rw [outsAt0_A m c t h0 h1]
  dsimp only
  exact Pieces.scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every other point it grows by the point's partial product. -/
theorem scratch_step (c : Dev nD) (t : Fin cfg0.N) (h0 : ¬t.val % 4 = 0) :
    scratchAfter m c t = k0_pay2 (scratchAfter m c (before t)) (xblk m c t) (wblk m c t) := by
  show (outsAt0 m c t.val t.isLt).2 = _
  by_cases h1 : t.val % 4 = 3
  · rw [outsAt0_C m c t h0 h1]
    dsimp only
    exact Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The last point of a run leaves the output block at that sum plus the bias row. -/
theorem out_flush (c : Dev nD) (t : Fin cfg0.N) (h1 : t.val % 4 = 3) :
    (outsAt0 m c t.val t.isLt).1 = k0_pay3 (k0_pay2 (scratchAfter m c (before t)) (xblk m c t) (wblk m c t)) (bblk m c t) := by
  have h0 : ¬t.val % 4 = 0 := by omega
  rw [outsAt0_C m c t h0 h1]
  dsimp only
  exact Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end AnyInstance

variable (m : (ℓ : Loc nD τ sig) → Buf (Elt Ideal) ℓ)

/-- The contraction of row `n` of x with row `o` of the masked weight over the `s`-th run of 1024 input features. -/
abbrev runSumOf (c : Dev nD) (n : Fin 8192) (o : Fin 4096) (s : Nat) (hs : s < 4) : EReal :=
  runSum (m ((c : Thread nD τ).loc main_arg0)) (maskedWeight m c) n o s hs

/-- Point 16·i + 4·j + s's partial product at (p, q) is that run's sum for the entry's row and column. -/
theorem partial_product (c : Dev nD) (t : Fin cfg0.N) (i j s : Nat) (hi : i < 4) (hj : j < 4) (hs : s < 4) (ht : t.val = 16 * i + 4 * j + s)
    (p : Fin 2048) (q : Fin 1024) :
    ∑ k : Fin 1024, (xblk m c t (ix2 p k) : EReal) * (wblk m c t (ix2 q k) : EReal) = runSumOf m c (rowIdx i hi p) (runIdx j hj q) s hs :=
  Finset.sum_congr rfl fun k _ =>
    congrArg₂ (· * ·) (xblk_apply m c t i j s hi hj hs ht p k) (wblk_apply m c t i j s hi hj hs ht q k)

/-- The scratch after the first point of run (i, j), -/
theorem scratch_run0 (c : Dev nD) (t : Fin cfg0.N) (i j : Nat) (hi : i < 4) (hj : j < 4) (ht : t.val = 16 * i + 4 * j + 0)
    (p : Fin 2048) (q : Fin 1024) :
    (scratchAfter m c t (ix2 p q) : EReal) = 0 + runSumOf m c (rowIdx i hi p) (runIdx j hj q) 0 (by decide) := by
  rw [scratch_reset m c t (by omega), Payload.step_apply (k0_pay1 (F := Ideal)) (xblk m c t) (wblk m c t) p q, Payload.zero_apply,
    partial_product m c t i j 0 hi hj (by decide) ht p q]

/-- after the second, -/
theorem scratch_run1 (c : Dev nD) (t : Fin cfg0.N) (i j : Nat) (hi : i < 4) (hj : j < 4) (ht : t.val = 16 * i + 4 * j + 1)
    (p : Fin 2048) (q : Fin 1024) :
    (scratchAfter m c t (ix2 p q) : EReal)
      = (0 + runSumOf m c (rowIdx i hi p) (runIdx j hj q) 0 (by decide)) + runSumOf m c (rowIdx i hi p) (runIdx j hj q) 1 (by decide) := by
  rw [scratch_step m c t (by omega), Payload.step_apply (scratchAfter m c (before t)) (xblk m c t) (wblk m c t) p q,
    scratch_run0 m c (before t) i j hi hj (by show t.val - 1 = _; omega) p q, partial_product m c t i j 1 hi hj (by decide) ht p q]

/-- and after the third. -/
theorem scratch_run2 (c : Dev nD) (t : Fin cfg0.N) (i j : Nat) (hi : i < 4) (hj : j < 4) (ht : t.val = 16 * i + 4 * j + 2)
    (p : Fin 2048) (q : Fin 1024) :
    (scratchAfter m c t (ix2 p q) : EReal)
      = ((0 + runSumOf m c (rowIdx i hi p) (runIdx j hj q) 0 (by decide)) + runSumOf m c (rowIdx i hi p) (runIdx j hj q) 1 (by decide))
          + runSumOf m c (rowIdx i hi p) (runIdx j hj q) 2 (by decide) := by
  rw [scratch_step m c t (by omega), Payload.step_apply (scratchAfter m c (before t)) (xblk m c t) (wblk m c t) p q,
    scratch_run1 m c (before t) i j hi hj (by show t.val - 1 = _; omega) p q, partial_product m c t i j 2 hi hj (by decide) ht p q]

/-- The dense layer of the arguments: x, the masked weight, the bias. -/
abbrev result (c : Dev nD) : FVec Ideal S8192x4096 .f32 :=
  linear (m ((c : Thread nD τ).loc main_arg0)) (maskedWeight m c) (m ((c : Thread nD τ).loc main_arg2))

/-- The block the fourth point of run (i, j) writes back holds, at (p, q), the dense layer at
    (row p of row block i, column q of column block j). -/
theorem flushed_apply (c : Dev nD) (t : Fin cfg0.N) (i j : Nat) (hi : i < 4) (hj : j < 4) (ht : t.val = 16 * i + 4 * j + 3)
    (p : Fin 2048) (q : Fin 1024) :
    ((outsAt0 m c t.val t.isLt).1 (ix2 p q) : EReal) = result m c (ix2 (rowIdx i hi p) (runIdx j hj q)) := by
  rw [out_flush m c t (by omega),
    Payload.bias_apply (k0_pay2 (scratchAfter m c (before t)) (xblk m c t) (wblk m c t)) (bblk m c t) p q,
    Payload.step_apply (scratchAfter m c (before t)) (xblk m c t) (wblk m c t) p q,
    scratch_run2 m c (before t) i j hi hj (by show t.val - 1 = _; omega) p q, partial_product m c t i j 3 hi hj (by decide) ht p q,
    bblk_apply m c t i j 3 hi hj (by decide) ht q]
  exact (linear_eq_runs (m ((c : Thread nD τ).loc main_arg0)) (maskedWeight m c) (m ((c : Thread nD τ).loc main_arg2)) (rowIdx i hi p) (runIdx j hj q)).symm

end Cert.KernelIdeal.Accumulate

end
-- ==== Proof.KernelValue.lean ====
/-
  The kernel's result array is the dense layer.

  Output block (i, j) is written back once, by the last point 16·i + 4·j + 3 of its run, and holds the dense layer's
  entries at rows 2048·i …, columns 1024·j …. Every entry (n, o) of the [8192, 4096] result lies in exactly such a
  block — that of i = n / 2048, j = o / 1024 — so after the run the whole array is the dense layer of x, the masked
  weight and the bias.
-/
import proofs.«138080_j83416854822913_1_alg».proof.Proof.Gen.KernelIdeal.Value
import proofs.«138080_j83416854822913_1_alg».proof.Proof.Accumulate

set_option maxRecDepth 16384

noncomputable section

namespace Cert.KernelIdeal.KernelValue

open Cert.KernelIdeal Cert.KernelIdeal.Gen Cert.KernelIdeal.Blocks Cert.KernelIdeal.Accumulate Cert.BlockedSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The flushed block of a run's last point, at any index of the block. -/
theorem flushed_at (c : Dev nD) (t : Fin cfg0.N) (i j : Nat) (hi : i < 4) (hj : j < 4) (ht : t.val = 16 * i + 4 * j + 3)
    (y : S2048x1024.Idx) :
    ((outsAt0 m c t.val t.isLt).1 y : EReal) = result m c (ix2 (rowIdx i hi (y 0)) (runIdx j hj (y 1))) := by
  obtain ⟨p, q, rfl⟩ : ∃ (p : Fin 2048) (q : Fin 1024), y = ix2 p q := ⟨y 0, y 1, eq_ix2 y⟩
  exact flushed_apply m c t i j hi hj ht p q

/-- What a flushing point writes back is its block of the dense layer. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 64 := lt_of_lt_of_eq t.isLt (show cfg0.N = 64 from N_0)
  have hb := block_index t
  rw [Value.flushed3]
  funext y
  rw [View.read_apply]
  show (outsAt0 m c t.val t.isLt).1 y = result m c (((cfg0.win 3).blk t).view.emb y)
  refine (flushed_at m c t (t.val / 16) (t.val / 4 % 4) (by omega) (by omega) (by omega) y).trans ?_
  refine congrArg (result m c) (funext fun a => Fin.ext ?_)
  match a with
  | ⟨0, _⟩ => show 2048 * (t.val / 16) + (y 0).val = win0_3.index t 0 * 2048 + 1 * (y 0).val; rw [hb.2.2.2.2.2.2.1]; omega
  | ⟨1, _⟩ => show 1024 * (t.val / 4 % 4) + (y 1).val = win0_3.index t 1 * 1024 + 1 * (y 1).val; rw [hb.2.2.2.2.2.2.2]; omega

/-- An entry of the result lies in point `t`'s block iff each coordinate lies in the block's range. -/
theorem mem_block (t : Fin cfg0.N) (o : S8192x4096.Idx) :
    o ∈ ((cfg0.win 3).blk t).view.set ↔ ∀ a : Fin 2, win0_3.index t a * S2048x1024.size a ≤ (o a).val ∧ (o a).val < win0_3.index t a * S2048x1024.size a + S2048x1024.size a := by
  show o ∈ ((View.whole main_v9).slice (win0_3.rect t)).set ↔ _
  rw [View.set_slice_whole, Rect.mem_set_unit]
  exact Iff.rfl

/-- Every entry (n, o) lies in the block written back by the last point of run (n / 2048, o / 1024). -/
theorem cover (o : S8192x4096.Idx) : ∃ t : Fin cfg0.N, (cfg0.win 3).flush t = true ∧ o ∈ ((cfg0.win 3).blk t).view.set := by
  have h0 : (o 0).val < 8192 := (o 0).isLt
  have h1 : (o 1).val < 4096 := (o 1).isLt
  have hN : cfg0.N = 64 := N_0
  have hlt : 16 * ((o 0).val / 2048) + 4 * ((o 1).val / 1024) + 3 < cfg0.N := by rw [hN]; omega
  have hb := block_index ⟨16 * ((o 0).val / 2048) + 4 * ((o 1).val / 1024) + 3, hlt⟩
  have e0 : win0_3.index ⟨16 * ((o 0).val / 2048) + 4 * ((o 1).val / 1024) + 3, hlt⟩ 0 = (o 0).val / 2048 := by
    rw [hb.2.2.2.2.2.2.1]; show (16 * ((o 0).val / 2048) + 4 * ((o 1).val / 1024) + 3) / 16 = _; omega
  have e1 : win0_3.index ⟨16 * ((o 0).val / 2048) + 4 * ((o 1).val / 1024) + 3, hlt⟩ 1 = (o 1).val / 1024 := by
    rw [hb.2.2.2.2.2.2.2]; show (16 * ((o 0).val / 2048) + 4 * ((o 1).val / 1024) + 3) / 4 % 4 = _; omega
  refine ⟨⟨16 * ((o 0).val / 2048) + 4 * ((o 1).val / 1024) + 3, hlt⟩, (flush0_3 _).mpr (by show (16 * ((o 0).val / 2048) + 4 * ((o 1).val / 1024) + 3) % 4 = 3; omega), ?_⟩
  rw [mem_block]
  intro a
  match a with
  | ⟨0, _⟩ =>
    show win0_3.index _ 0 * 2048 ≤ (o 0).val ∧ (o 0).val < win0_3.index _ 0 * 2048 + 2048
    rw [e0]; omega
  | ⟨1, _⟩ =>
    show win0_3.index _ 1 * 1024 ≤ (o 1).val ∧ (o 1).val < win0_3.index _ 1 * 1024 + 1024
    rw [e1]; omega

/-- After the run the result array is the dense layer. -/
theorem final (c : Dev nD) : (dats m 0 c).arrAt 3 cfg0.N = result m c :=
  (dats m 0 c).arrAt_eq_of_cover 3 (result m c) (flushed_eq m c) cover

/-- The kernel's run: it ends with the result array at the dense layer of its arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference computes the dense layer.

  Its last stage adds, at (n, o), the `dot_general` of x with the masked weight — contracting the second axis of each, so
  Σ_k x(n, k) · W(o, k) — and the bias laid along the columns, which there reads the bias at o.
-/
import proofs.«138080_j83416854822913_1_alg».proof.Proof.Gen.ReferenceIdeal.Read
import proofs.«138080_j83416854822913_1_alg».proof.Proof.BlockedSum

noncomputable section

namespace Cert.ReferenceIdeal.RefValue

open Cert.ReferenceIdeal Cert.ReferenceIdeal.Read Cert.BlockedSum
open Idealize.ShloMosaic Idealize.ShloMosaic.ValueIdx

/-- The contraction reads x at (n, k), -/
theorem lhs_index (o : S8192x4096.Idx) (k : Fin 4096) : lidx_main_v6 o k = ix2 (o 0) k :=
  funext fun a => Fin.ext (by match a with | ⟨0, _⟩ => rfl | ⟨1, _⟩ => rfl)

/-- the masked weight at (o, k), -/
theorem rhs_index (o : S8192x4096.Idx) (k : Fin 4096) : ridx_main_v6 o k = ix2 (o 1) k :=
  funext fun a => Fin.ext (by match a with | ⟨0, _⟩ => rfl | ⟨1, _⟩ => rfl)

/-- and the two broadcasts of the bias read it at o. -/
theorem bias_index (o : S8192x4096.Idx) : idx_main_v7 (idx_main_v8 o) = ix1 (o 1) :=
  funext fun a => Fin.ext (by match a with | ⟨0, _⟩ => rfl)

/-- The reference's result is the dense layer of x, the masked weight and the bias. -/
theorem result_eq (x0 : FVec Ideal S8192x4096 .f32) (x1 : FVec Ideal S4096x4096 .f32) (x2 : FVec Ideal S4096 .f32)
    (x3 : (⟨S128x128, .i32⟩ : BufTy).Contents (Elt Ideal)) :
    val_main_v9 (F := Ideal) x0 x1 x2 x3 = linear x0 (val_main_v5 (F := Ideal) x1 x3) x2 := by
  funext o
  rw [val_main_v9_apply, val_main_v6_apply, val_main_v8_apply, val_main_v7_apply]
  simp only [lhs_index, rhs_index, bias_index]
  rfl

end Cert.ReferenceIdeal.RefValue

end
-- ==== Proof.lean ====
/-
  A block-sparse linear layer: y = x · (weight ⊙ mask)ᵀ + bias, with x : [8192, 4096], weight : [4096, 4096],
  bias : [4096] and a 0/1 mask given per 32 × 32 block of the weight and repeated over the block.

  Both programs build the masked weight W = weight ⊙ (mask as floats) with the same host operations. The reference then
  contracts all 4096 input features at once,  y[n, o] = Σ_i x[n, i] · W[o, i] + bias[o].  The kernel narrows x and W to
  bf16 — no change over the extended reals — and walks a 4 × 4 × 4 grid: for output block (i, j) of 2048 × 1024 entries it
  zeroes an accumulator, adds in turn the partial products over the four runs of 1024 input features, and at the fourth adds
  the bias row and writes the block back. A finite sum of extended reals does not depend on how it is cut into runs or
  on the order they are added in (addition is commutative and associative, zero its unit), so each written block is the
  reference's block, and the blocks tile the result. Neither finiteness of the inputs nor any property of the mask's
  integers is used.

  The three programs' runs terminate with the arguments unchanged: the two kernels' by their frame certificates, the
  reference's by its run read back. The idealization rewrote nothing, so there is nothing to preserve.
-/
import proofs.«138080_j83416854822913_1_alg».proof.Defs
import proofs.«138080_j83416854822913_1_alg».proof.Proof.Gen.Kernel
import proofs.«138080_j83416854822913_1_alg».proof.Proof.Gen.Kernel.Skeleton
import proofs.«138080_j83416854822913_1_alg».proof.Proof.Gen.Kernel.Launch
import proofs.«138080_j83416854822913_1_alg».proof.Proof.Gen.Kernel.Points
import proofs.«138080_j83416854822913_1_alg».proof.Proof.Gen.Kernel.Frame
import proofs.«138080_j83416854822913_1_alg».proof.Proof.Gen.KernelIdeal
import proofs.«138080_j83416854822913_1_alg».proof.Proof.Gen.KernelIdeal.Skeleton
import proofs.«138080_j83416854822913_1_alg».proof.Proof.Gen.KernelIdeal.Launch
import proofs.«138080_j83416854822913_1_alg».proof.Proof.Gen.KernelIdeal.Points
import proofs.«138080_j83416854822913_1_alg».proof.Proof.Gen.KernelIdeal.Frame
import proofs.«138080_j83416854822913_1_alg».proof.Proof.Gen.ReferenceIdeal
import proofs.«138080_j83416854822913_1_alg».proof.Proof.Gen.Pre_finite_inputs
import proofs.«138080_j83416854822913_1_alg».proof.Proof.Gen.KernelIdeal.Value
import proofs.«138080_j83416854822913_1_alg».proof.Proof.Gen.ReferenceIdeal.Run
import proofs.«138080_j83416854822913_1_alg».proof.Proof.Gen.ReferenceIdeal.Read
import proofs.«138080_j83416854822913_1_alg».proof.Proof.KernelValue
import proofs.«138080_j83416854822913_1_alg».proof.Proof.RefValue
import Idealize.ShloMosaic.Adequacy
import Idealize.ShloMosaic.Init

noncomputable section

namespace Cert.Proof

open Idealize.ShloMosaic Idealize.SL.Sem

/-- The word-level kernel terminates with its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are the same dense layer of x, the masked
    weight and the bias: the kernel's by its blocks, the reference's stage by stage; the two masked weights are the same
    host operations of arguments that agree. -/
theorem algebraic : Cert.algebraic_KernelIdeal_ReferenceIdeal := by
  intro m ρ m' ρ' _ hagree
  refine ⟨fun c => Cert.KernelIdeal.Accumulate.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
